-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S64x4096 : Shape := ⟨2, ![64, 4096]⟩
abbrev S4096x64 : Shape := ⟨2, ![4096, 64]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  main_v18

def fn {F : FTy → Type} [FloatOps F] (main_arg0 : FVec F S16384x4096 .f32) (main_arg1 : FVec F S64x4096 .f32) (main_arg2 : FVec F S4096x64 .f32) (main_arg3 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_v13 main_v16
-- ==== Kernel.lean ====
abbrev S16384x4096 : Shape := ⟨2, ![16384, 4096]⟩
abbrev S64x4096 : Shape := ⟨2, ![64, 4096]⟩
abbrev S4096x64 : Shape := ⟨2, ![4096, 64]⟩
abbrev S256x4096 : Shape := ⟨2, ![256, 4096]⟩
abbrev S256x64 : Shape := ⟨2, ![256, 64]⟩

abbrev nBuf : Space → Nat
  | .hbm => 9
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x4096, .f32⟩
  | .hbm, ⟨4, _⟩ => ⟨S4096x64, .f32⟩
  | .hbm, ⟨5, _⟩ => ⟨S4096x64, .bf16⟩
  | .hbm, ⟨6, _⟩ => ⟨S64x4096, .f32⟩
  | .hbm, ⟨7, _⟩ => ⟨S64x4096, .bf16⟩
  | .hbm, ⟨8, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S4096x64, .bf16⟩
  | .local _ .vmem, ⟨5, _⟩ => ⟨S64x4096, .bf16⟩
  | .local _ .vmem, ⟨6, _⟩ => ⟨S256x4096, .f32⟩
  | .local _ .vmem, ⟨7, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x4096_S4096x64_1_0 : S64x4096.Transposes [1, 0] S4096x64
  bitsLt_bf16_f32 : FTy.bits .bf16 < FTy.bits .f32
  transposes_S4096x64_S64x4096_1_0 : S4096x64.Transposes [1, 0] S64x4096
  inb_S256x4096_S256x4096_0_0 : ∀ a, (![0, 0] : Fin 2 → Nat) a + S256x4096.size a ≤ S256x4096.size a
  h_S256x4096 : 0 < S256x4096.numel
  natLt_1_32 : 1 < 32
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  dot_S256x4096_S4096x64_S256x64_1_0_0_1_n_n_wf : DotDims.WF S256x4096 S4096x64 S256x64 [1] [0] [0] [1] [] []
  dot_S256x64_S64x4096_S256x4096_1_0_0_1_n_n_wf : DotDims.WF S256x64 S64x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .bf16 = 32 ∨ (Rect.block (s := S64x4096) S64x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S16384x4096.size a
  hwx0_4 : ∀ i : grid0.Coords, EltTy.bits .f32 = 32 ∨ (Rect.block (s := S16384x4096) S256x4096.size (cc0_transform_4 i) (hinb0_4 i)).WholeWords (EltTy.packing .f32)

variable [Facts₀]

def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S64x4096 : Shape := ⟨2, ![64, 4096]⟩
abbrev S4096x64 : Shape := ⟨2, ![4096, 64]⟩
abbrev S_ : Shape := ⟨0, ![]⟩
abbrev S16384x64 : Shape := ⟨2, ![16384, 64]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S64x4096, .f32⟩
  | .hbm, ⟨2, _⟩ => ⟨S4096x64, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .i1⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x64, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  dot_S16384x4096_S64x4096_S16384x64_1_1_0_0_n_n_wf : DotDims.WF S16384x4096 S64x4096 S16384x64 [1] [1] [0] [0] [] []
  dot_S16384x64_S4096x64_S16384x4096_1_1_0_0_n_n_wf : DotDims.WF S16384x64 S4096x64 S16384x4096 [1] [1] [0] [0] [] []

variable [Facts₀]

def dot_S16384x4096_S64x4096_S16384x64_1_1_0_0_n_n : DotDims S16384x4096 S64x4096 S16384x64 where
  lhsContracting := [1]
  rhsContracting := [1]
  lhsNonContracting := [0]
  rhsNonContracting := [0]
  lhsBatch := []
  rhsBatch := []
  wf := dot_S16384x4096_S64x4096_S16384x64_1_1_0_0_n_n_wf
def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.LoraSpec.lean ====
/-
  The function both programs compute, index by index, on the extended reals.

  Inverted dropout followed by a rank-64 adapter: with the keep mask  k(u) = [u ≥ 0.1]  (one where the uniform draw is at
  least the drop probability, zero elsewhere) and the two shared scale words  c  (the f32 nearest 10/9) and  2 = α / r,

      out[t, o] = ( ∑ r < 64, ( ∑ i < 4096, (x[t, i] · k(u[t, i]) · c) · A[r, i] ) · B[o, r] ) · 2 .

  The two scale words and the threshold word are the same bit patterns in the kernel and in the reference, so they are
  never evaluated: they stay the extended reals their words denote.
-/
import Idealize.ShloMosaic.PureOps.Ideal
import Idealize.ShloMosaic.Lib.ValueIdx

noncomputable section

open scoped BigOperators

namespace Cert.Lora

open Idealize.ShloMosaic Idealize.ShloMosaic.ValueIdx

/-- The keep mask of one uniform draw: one where the draw is at least the drop probability (the f32 word of 0.1), else zero. -/
def keep (u : EReal) : EReal :=
  FloatOps.uitofp (F := Ideal) .f32 (FloatOps.cmpf (F := Ideal) (φ := .f32) .oge u (FloatOps.ofBits (F := Ideal) .f32 0x3DCCCCCD#32))

/-- One activation after inverted dropout: kept or zeroed, then rescaled by the f32 word nearest 1 / (1 − 0.1). -/
def dropped (x u : EReal) : EReal :=
  FloatOps.mulf (F := Ideal) (φ := .f32) (FloatOps.mulf (F := Ideal) (φ := .f32) x (keep u)) (FloatOps.ofBits (F := Ideal) .f32 0x3F8E38E4#32)

/-- The low-rank projection of row `t` of the dropped activations onto row `r` of `A`: a sum over the 4096 input features. -/
def down (x u : (⟨2, ![16384, 4096]⟩ : Shape).Idx → EReal) (A : (⟨2, ![64, 4096]⟩ : Shape).Idx → EReal)
    (t : Fin 16384) (r : Fin 64) : EReal :=
  ∑ i : Fin 4096, dropped (x (ix2 t i)) (u (ix2 t i)) * A (ix2 r i)

/-- The adapter's output: the rank-64 projection expanded through `B`, a sum over the 64 ranks, times the scaling word 2. -/
def lora (x u : (⟨2, ![16384, 4096]⟩ : Shape).Idx → EReal) (A : (⟨2, ![64, 4096]⟩ : Shape).Idx → EReal)
    (B : (⟨2, ![4096, 64]⟩ : Shape).Idx → EReal) : (⟨2, ![16384, 4096]⟩ : Shape).Idx → EReal :=
  fun j => FloatOps.mulf (F := Ideal) (φ := .f32) (∑ r : Fin 64, down x u A (j 0) r * B (ix2 (j 1) r))
    (FloatOps.ofBits (F := Ideal) .f32 0x40000000#32)

/-- The kernel converts the comparison bit to a float by widening it to a word and reading the word signed; the host
    converts the bit itself. On a one-bit word the two readings agree (both are 0 or 1). -/
theorem keep_eq_widened (u : EReal) (h : 1 < 32) :
    FloatOps.sitofp (F := Ideal) .f32
        ((FloatOps.cmpf (F := Ideal) (φ := .f32) .oge u (FloatOps.ofBits (F := Ideal) .f32 0x3DCCCCCD#32)).setWidth 32)
      = keep u := by
  unfold keep
  generalize FloatOps.cmpf (F := Ideal) (φ := .f32) .oge u (FloatOps.ofBits (F := Ideal) .f32 0x3DCCCCCD#32) = b
  show ((((b.setWidth 32).toInt : ℝ)) : EReal) = (((b.toNat : ℝ)) : EReal)
  rcases BitVec.eq_zero_or_eq_one b with rfl | rfl <;> simp

end Cert.Lora

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.KernelBody.lean ====
/-
  The kernel body's one stored value, read at row `p` and column `q` of a 256 × 4096 output block.

  The body drops and rescales its block of activations elementwise, multiplies the result (256 × 4096) by the resident
  4096 × 64 matrix, multiplies that (256 × 64) by the resident 64 × 4096 matrix, and doubles. Each of the two products is
  accumulated into a zero matrix, so at an element it is the plain sum over the contracted coordinate; the two changes of
  float format in between are the identity on extended reals, and the two shape casts are to the same shape. Hence

      stored[p, q] = ( ∑ r < 64, ( ∑ i < 4096, dropped(xblk[p, i], ublk[p, i]) · at[i, r] ) · bt[r, q] ) · 2 .
-/
import proofs.«126281_j48524540510754_1_alg».proof.Proof.Gen.KernelIdeal.Skeleton
import proofs.«126281_j48524540510754_1_alg».proof.Proof.LoraSpec
import proofs.«126281_j48524540510754_1_alg».proof.Proof.LibPlainMatmul
import Idealize.ShloMosaic.Lib.Pipeline.Value

noncomputable section

open scoped BigOperators

namespace Cert.KernelIdeal.Body

open Cert.KernelIdeal Cert.KernelIdeal.Gen
open Idealize.ShloMosaic Idealize.ShloMosaic.ValueIdx

/-- The dimension numbers of the first product are those of a plain 256 × 4096 by 4096 × 64 product, -/
theorem dot_down_eq : dot_S256x4096_S4096x64_S256x64_1_0_0_1_n_n = DotDims.plain 256 4096 64 := rfl
/-- and those of the second of a plain 256 × 64 by 64 × 4096 product. -/
theorem dot_up_eq : dot_S256x64_S64x4096_S256x4096_1_0_0_1_n_n = DotDims.plain 256 64 4096 := rfl

/-- The dropped-and-rescaled block at one element: the compare, the widening of its bit, the conversion and the two
    multiplies are the specification's `dropped` of the two loaded elements. -/
theorem dropped_apply (xb ub : Vec Ideal S256x4096 .f32) (p : Fin 256) (i : Fin 4096) :
    (mulf (mulf xb (sitofp .f32 (extui 32 (cmpf .oge ub (broadcast S256x4096 (Scalar.ofBits (F := Ideal) .f32 0x3DCCCCCD#32))) natLt_1_32)))
        (broadcast S256x4096 (Scalar.ofBits (F := Ideal) .f32 0x3F8E38E4#32)) : FVec Ideal S256x4096 .f32) (ix2 p i)
      = Cert.Lora.dropped (xb (ix2 p i)) (ub (ix2 p i)) := by
  unfold Cert.Lora.dropped
  rw [← Cert.Lora.keep_eq_widened (ub (ix2 p i)) natLt_1_32]
  rfl

/-- The stored value at row `p`, column `q` of the block. -/
theorem stored_apply (xb ub : Vec Ideal S256x4096 .f32) (at_ : Vec Ideal S4096x64 .bf16) (bt : Vec Ideal S64x4096 .bf16)
    (p : Fin 256) (q : Fin 4096) :
    k0_pay1 (F := Ideal) xb ub at_ bt (ix2 p q)
      = FloatOps.mulf (F := Ideal) (φ := .f32)
          (∑ r : Fin 64, (∑ i : Fin 4096, Cert.Lora.dropped (xb (ix2 p i)) (ub (ix2 p i)) * at_ (ix2 i r)) * bt (ix2 r q))
          (FloatOps.ofBits (F := Ideal) .f32 0x40000000#32) := by
  unfold k0_pay1
  rw [shapeCast_self, shapeCast_self, dot_down_eq, dot_up_eq]
  show FloatOps.mulf (F := Ideal) (φ := .f32) (matmul (F := Ideal) (φ₁ := .bf16) (φ₂ := .bf16) (DotDims.plain 256 64 4096) none _ bt (constant (⟨2, ![256, 4096]⟩ : Shape) .f32 0x00000000#32) (ix2 p q)) _ = _
  rw [Cert.LibPlainMatmul.matmul_plain_apply]
  refine congrArg (fun s => FloatOps.mulf (F := Ideal) (φ := .f32) s (FloatOps.ofBits (F := Ideal) .f32 0x40000000#32)) ?_
  refine Finset.sum_congr rfl fun r _ => ?_
  refine congrArg (· * bt (ix2 r q)) ?_
  show matmul (F := Ideal) (φ₁ := .bf16) (φ₂ := .bf16) (DotDims.plain 256 4096 64) none _ at_ (constant (⟨2, ![256, 64]⟩ : Shape) .f32 0x00000000#32) (ix2 p r) = _
  rw [Cert.LibPlainMatmul.matmul_plain_apply]
  refine Finset.sum_congr rfl fun i _ => ?_
  refine congrArg (· * at_ (ix2 i r)) ?_
  exact dropped_apply xb ub p i

/-- One stored block is the specification restricted to the block's rows: if the two streamed blocks are rows
    `256 n … 256 n + 255` of the activations and of the uniform draws, and the two resident matrices are `A` and `B`
    transposed, then the stored value at `y` is the specification at the array index `k` whose row is `256 n` plus `y`'s row
    and whose column is `y`'s column. -/
theorem block_value (xb ub : Vec Ideal S256x4096 .f32) (at_ : Vec Ideal S4096x64 .bf16) (bt : Vec Ideal S64x4096 .bf16)
    (x u : S16384x4096.Idx → EReal) (A : S64x4096.Idx → EReal) (B : S4096x64.Idx → EReal) (n : ℕ)
    (hx : ∀ (p : Fin 256) (i : Fin 4096) (k : Fin 16384), k.val = 256 * n + p.val → xb (ix2 p i) = x (ix2 k i))
    (hu : ∀ (p : Fin 256) (i : Fin 4096) (k : Fin 16384), k.val = 256 * n + p.val → ub (ix2 p i) = u (ix2 k i))
    (hat : ∀ (i : Fin 4096) (r : Fin 64), at_ (ix2 i r) = A (ix2 r i))
    (hbt : ∀ (r : Fin 64) (q : Fin 4096), bt (ix2 r q) = B (ix2 q r))
    (y : S256x4096.Idx) (k : S16384x4096.Idx) (hk0 : (k 0).val = 256 * n + (y 0).val) (hk1 : (k 1).val = (y 1).val) :
    k0_pay1 (F := Ideal) xb ub at_ bt y = Cert.Lora.lora x u A B k := by
  obtain ⟨p, q, rfl⟩ : ∃ (p : Fin 256) (q : Fin 4096), y = ix2 p q := ⟨y 0, y 1, eq_ix2 y⟩
  obtain ⟨t, o, rfl⟩ : ∃ (t : Fin 16384) (o : Fin 4096), k = ix2 t o := ⟨k 0, k 1, eq_ix2 k⟩
  have ht : t.val = 256 * n + p.val := hk0
  have ho : o = q := Fin.ext hk1
  subst ho
  rw [stored_apply]
  show _ = FloatOps.mulf (F := Ideal) (φ := .f32) (∑ r : Fin 64, Cert.Lora.down x u A t r * B (ix2 o r))
    (FloatOps.ofBits (F := Ideal) .f32 0x40000000#32)
  refine congrArg (fun s => FloatOps.mulf (F := Ideal) (φ := .f32) s (FloatOps.ofBits (F := Ideal) .f32 0x40000000#32)) ?_
  refine Finset.sum_congr rfl fun r _ => ?_
  rw [hbt]
  refine congrArg (· * B (ix2 o r)) ?_
  unfold Cert.Lora.down
  refine Finset.sum_congr rfl fun i _ => ?_
  rw [hx p i t ht, hu p i t ht, hat]

end Cert.KernelIdeal.Body

end
-- ==== Proof.KernelValue.lean ====
/-
  The kernel's result array, after the run, is the specification of the four argument arrays.

  The grid has 64 points; point `t` streams rows `256 t … 256 t + 255` of the activations and of the uniform draws, keeps the
  two small matrices resident (the host has transposed `A` and `B` before the call, and narrowed them, which changes no
  extended real), and writes back rows `256 t … 256 t + 255` of the result. So what point `t` writes back is block `t` of
  the specification, the 64 blocks tile the result array, and the array ends as the specification everywhere.
-/
import proofs.«126281_j48524540510754_1_alg».proof.Proof.Gen.KernelIdeal.Value
import proofs.«126281_j48524540510754_1_alg».proof.Proof.KernelBody
import Idealize.ShloMosaic.Lib.Pipeline.Value
import Idealize.ShloMosaic.Lib.ValueLayout
import Idealize.ShloMosaic.Lib.StableHlo.Run
import Idealize.ShloMosaic.Lib.Tactic

noncomputable section

open scoped BigOperators

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The four argument arrays as launched, by their literal types: activations, `A`, `B`, uniform draws. -/
abbrev xarr (c : Dev nD) : S16384x4096.Idx → EReal := m ((c : Thread nD τ).loc main_arg0)
abbrev Aarr (c : Dev nD) : S64x4096.Idx → EReal := m ((c : Thread nD τ).loc main_arg1)
abbrev Barr (c : Dev nD) : S4096x64.Idx → EReal := m ((c : Thread nD τ).loc main_arg2)
abbrev uarr (c : Dev nD) : S16384x4096.Idx → EReal := m ((c : Thread nD τ).loc main_arg3)

/-- The result array the run should end with. -/
abbrev result (c : Dev nD) : S16384x4096.Idx → EReal :=
  Cert.Lora.lora (xarr m c) (uarr m c) (Aarr m c) (Barr m c)

/-! ## The two matrices the host prepares before the call -/

/-- When the region is entered the first resident matrix is `A` transposed: entry `(i, r)` is `A[r, i]`. -/
theorem at_read (c : Dev nD) (i : Fin 4096) (r : Fin 64) :
    (V m c main_v1 : S4096x64.Idx → EReal) (ix2 i r) = Aarr m c (ix2 r i) := by
  have e : (V m c main_v1 : S4096x64.Idx → EReal)
      = truncf (F := Ideal) .bf16 (transpose S4096x64 [1, 0] (Aarr m c) transposes_S64x4096_S4096x64_1_0) bitsLt_bf16_f32 := by
    dsimp only [Gen.V, Gen.hostOps0]; after_results
  rw [e, truncf_apply, transpose_ix2_apply]

/-- And the second is `B` transposed: entry `(r, q)` is `B[q, r]`. -/
theorem bt_read (c : Dev nD) (r : Fin 64) (q : Fin 4096) :
    (V m c main_v3 : S64x4096.Idx → EReal) (ix2 r q) = Barr m c (ix2 q r) := by
  have e : (V m c main_v3 : S64x4096.Idx → EReal)
      = truncf (F := Ideal) .bf16 (transpose S64x4096 [1, 0] (Barr m c) transposes_S4096x64_S64x4096_1_0) bitsLt_bf16_f32 := by
    dsimp only [Gen.V, Gen.hostOps0]; after_results
  rw [e, truncf_apply, transpose_ix2_apply]

/-! ## The windows' blocks -/

/-- The printed index maps over the grid: the two streamed inputs and the output move one block of rows per point, the two
    resident matrices stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The activations' block at point `t` is rows `256 t …` of the activations. -/
theorem xblk_read (c : Dev nD) (t : Fin cfg0.N) (p : Fin 256) (i : Fin 4096) (k : Fin 16384) (hk : k.val = 256 * t.val + p.val) :
    (iblk m c 0 t : Vec Ideal S256x4096 .f32) (ix2 p i) = xarr m c (ix2 k i) := by
  obtain ⟨e0, e1, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 256 + 1 * p.val = k.val; rw [e0, hk]; omega
  | ⟨1, _⟩ => show win0_0.index t (1 : Fin 2) * 4096 + 1 * i.val = i.val; rw [e1]; omega

/-- The uniform draws' block at point `t` is the same rows of the draws. -/
theorem ublk_read (c : Dev nD) (t : Fin cfg0.N) (p : Fin 256) (i : Fin 4096) (k : Fin 16384) (hk : k.val = 256 * t.val + p.val) :
    (iblk m c 1 t : Vec Ideal S256x4096 .f32) (ix2 p i) = uarr m c (ix2 k i) := by
  obtain ⟨-, -, e2, e3, -⟩ := idx_facts t
  unfold iblk
  rw [View.read_apply]
  show V m c main_arg3 _ = m ((c : Thread nD τ).loc main_arg3) _
  rw [V_main_arg3]
  refine congrArg (m ((c : Thread nD τ).loc main_arg3)) (funext fun a => Fin.ext ?_)
  match a with
  | ⟨0, _⟩ => show win0_1.index t (0 : Fin 2) * 256 + 1 * p.val = k.val; rw [e2, hk]; omega
  | ⟨1, _⟩ => show win0_1.index t (1 : Fin 2) * 4096 + 1 * i.val = i.val; rw [e3]; omega

/-- The first resident block is the whole transposed `A` at every point. -/
theorem atblk_read (c : Dev nD) (t : Fin cfg0.N) (i : Fin 4096) (r : Fin 64) :
    (iblk m c 2 t : Vec Ideal S4096x64 .bf16) (ix2 i r) = Aarr m c (ix2 r i) := by
  obtain ⟨-, -, -, -, e4, e5, -⟩ := idx_facts t
  rw [← at_read m c i r]
  unfold iblk
  rw [View.read_apply]
  show V m c main_v1 _ = V m c main_v1 _
  refine congrArg (V m c main_v1) (funext fun a => Fin.ext ?_)
  match a with
  | ⟨0, _⟩ => show win0_2.index t (0 : Fin 2) * 4096 + 1 * i.val = i.val; rw [e4]; omega
  | ⟨1, _⟩ => show win0_2.index t (1 : Fin 2) * 64 + 1 * r.val = r.val; rw [e5]; omega

/-- The second resident block is the whole transposed `B` at every point. -/
theorem btblk_read (c : Dev nD) (t : Fin cfg0.N) (r : Fin 64) (q : Fin 4096) :
    (iblk m c 3 t : Vec Ideal S64x4096 .bf16) (ix2 r q) = Barr m c (ix2 q r) := by
  obtain ⟨-, -, -, -, -, -, e6, e7, -⟩ := idx_facts t
  rw [← bt_read m c r q]
  unfold iblk
  rw [View.read_apply]
  show V m c main_v3 _ = V m c main_v3 _
  refine congrArg (V m c main_v3) (funext fun a => Fin.ext ?_)
  match a with
  | ⟨0, _⟩ => show win0_3.index t (0 : Fin 2) * 64 + 1 * r.val = r.val; rw [e6]; omega
  | ⟨1, _⟩ => show win0_3.index t (1 : Fin 2) * 4096 + 1 * q.val = q.val; rw [e7]; omega

/-! ## What each point writes back, and the array after the run -/

/-- What point `t` writes back is block `t` of the specification. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S256x4096) hz, View.ld_unit_zero (S := S4096x64) hz, View.ld_unit_zero (S := S64x4096) hz]
  obtain ⟨-, -, -, -, -, -, -, -, e8, e9⟩ := idx_facts t
  funext y
  show k0_pay1 (F := Ideal) (iblk m c 0 t) (iblk m c 1 t) (iblk m c 2 t) (iblk m c 3 t) y
    = Cert.Lora.lora (xarr m c) (uarr m c) (Aarr m c) (Barr m c) (((cfg0.win 4).blk t).view.emb y)
  refine Body.block_value _ _ _ _ _ _ _ _ t.val (fun p i k hk => xblk_read m c t p i k hk) (fun p i k hk => ublk_read m c t p i k hk)
    (fun i r => atblk_read m c t i r) (fun r q => btblk_read m c t r q) y _ ?_ ?_
  · show win0_4.index t (0 : Fin 2) * 256 + 1 * (y 0).val = 256 * t.val + (y 0).val
    rw [e8]; omega
  · show win0_4.index t (1 : Fin 2) * 4096 + 1 * (y 1).val = (y 1).val
    rw [e9]; omega

/-- An index of the result array is in point `t`'s block iff each coordinate is in the block's range on its axis. -/
theorem mem_blk (t : Fin cfg0.N) (i : S16384x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v4).slice (win0_4.rect t)).set ↔ _
  rw [View.set_slice_whole, Rect.mem_set_unit]
  exact Iff.rfl

/-- Every index of the result array is in the block of the point its row falls in: row `s` is in block `s / 256`. -/
theorem cover (i : S16384x4096.Idx) : ∃ t : Fin cfg0.N, (cfg0.win 4).flush t = true ∧ i ∈ ((cfg0.win 4).blk t).view.set := by
  have hi0 : (i 0).val < 16384 := (i 0).isLt
  have hi1 : (i 1).val < 4096 := (i 1).isLt
  have hN : cfg0.N = 64 := N_0
  have hlt : (i 0).val / 256 < cfg0.N := by rw [hN]; omega
  obtain ⟨-, -, -, -, -, -, -, -, e8, e9⟩ := idx_facts ⟨(i 0).val / 256, hlt⟩
  refine ⟨⟨(i 0).val / 256, hlt⟩, flush0_4 _, ?_⟩
  rw [mem_blk]
  intro a
  match a with
  | ⟨0, _⟩ =>
    show win0_4.index ⟨(i 0).val / 256, hlt⟩ (0 : Fin 2) * 256 ≤ (i 0).val ∧ (i 0).val < win0_4.index ⟨(i 0).val / 256, hlt⟩ (0 : Fin 2) * 256 + 256
    rw [e8]; show (i 0).val / 256 * 256 ≤ (i 0).val ∧ (i 0).val < (i 0).val / 256 * 256 + 256; omega
  | ⟨1, _⟩ =>
    show win0_4.index ⟨(i 0).val / 256, hlt⟩ (1 : Fin 2) * 4096 ≤ (i 1).val ∧ (i 1).val < win0_4.index ⟨(i 0).val / 256, hlt⟩ (1 : Fin 2) * 4096 + 4096
    rw [e9]; omega

/-- So the result array ends as the specification. -/
theorem final (c : Dev nD) : (dats m 0 c).arrAt 4 cfg0.N = result m c :=
  (dats m 0 c).arrAt_eq_of_cover 4 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Hand

end
-- ==== Proof.RefValue.lean ====
/-
  The reference, read at an index, is `Cert.Lora.lora`: its thirteen host operations are the dropout (compare, convert,
  two multiplies), the two contractions  'ti,ri->tr'  and  'tr,or->to'  each a plain sum over the one contracted axis, and
  the final scaling. Reading them one stage at a time and naming each operand index by its coordinates leaves, term by
  term, the specification's double sum.
-/
import proofs.«126281_j48524540510754_1_alg».proof.Proof.Gen.ReferenceIdeal.Read
import proofs.«126281_j48524540510754_1_alg».proof.Proof.LoraSpec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The second contraction reads its left operand, at output `(t, o)` and rank `r`, at `(t, r)`, -/
theorem lidx7 (t : Fin 16384) (o : Fin 4096) (r : Fin 64) : lidx_main_v7 (ix2 t o) r = ix2 t r :=
  funext fun a => Fin.ext (by match a with | ⟨0, _⟩ => rfl | ⟨1, _⟩ => rfl)
/-- and `B` at `(o, r)`. -/
theorem ridx7 (t : Fin 16384) (o : Fin 4096) (r : Fin 64) : ridx_main_v7 (ix2 t o) r = ix2 o r :=
  funext fun a => Fin.ext (by match a with | ⟨0, _⟩ => rfl | ⟨1, _⟩ => rfl)
/-- The first contraction reads the dropped activations, at `(t, r)` and feature `i`, at `(t, i)`, -/
theorem lidx6 (t : Fin 16384) (r : Fin 64) (i : Fin 4096) : lidx_main_v6 (ix2 t r) i = ix2 t i :=
  funext fun a => Fin.ext (by match a with | ⟨0, _⟩ => rfl | ⟨1, _⟩ => rfl)
/-- and `A` at `(r, i)`. -/
theorem ridx6 (t : Fin 16384) (r : Fin 64) (i : Fin 4096) : ridx_main_v6 (ix2 t r) i = ix2 r i :=
  funext fun a => Fin.ext (by match a with | ⟨0, _⟩ => rfl | ⟨1, _⟩ => rfl)

/-- The dropped activations, one element: the host's compare-and-convert is the keep mask, then the two multiplies. -/
theorem dropped_apply (x u : S16384x4096.Idx → EReal) (k : S16384x4096.Idx) :
    val_main_v5 (F := Ideal) x u k = Cert.Lora.dropped (x k) (u k) := by
  rw [val_main_v5_apply, val_main_v3_apply, val_main_v2_apply, val_main_v1_apply, val_main_v0_apply, val_main_v4_apply,
    val_main_cst_apply, val_main_cst_0_apply]
  rfl

/-- The reference's result array is the specification of its four arguments. -/
theorem result_eq (x : S16384x4096.Idx → EReal) (A : S64x4096.Idx → EReal) (B : S4096x64.Idx → EReal) (u : S16384x4096.Idx → EReal) :
    val_main_v9 (F := Ideal) x A B u = Cert.Lora.lora x u A B := by
  funext j
  obtain ⟨t, o, rfl⟩ : ∃ (t : Fin 16384) (o : Fin 4096), j = ix2 t o := ⟨j 0, j 1, eq_ix2 j⟩
  rw [val_main_v9_apply, val_main_v7_apply, val_main_v8_apply, val_main_cst_1_apply]
  show _ = FloatOps.mulf (F := Ideal) (φ := .f32) (∑ r : Fin 64, Cert.Lora.down x u A t r * B (ix2 o r))
    (FloatOps.ofBits (F := Ideal) .f32 0x40000000#32)
  refine congrArg (fun s => FloatOps.mulf (F := Ideal) (φ := .f32) s (FloatOps.ofBits (F := Ideal) .f32 0x40000000#32)) ?_
  refine Finset.sum_congr rfl fun r _ => ?_
  rw [lidx7, ridx7, val_main_v6_apply]
  unfold Cert.Lora.down
  refine congrArg (· * B (ix2 o r)) ?_
  refine Finset.sum_congr rfl fun i _ => ?_
  rw [lidx6, ridx6, dropped_apply]

end Cert.ReferenceIdeal.RefValue

end
-- ==== Proof.lean ====
/-
  Inverted dropout into a rank-64 adapter, a Pallas kernel against its jnp reference, over the extended reals.

  Both programs compute, for activations `x`, uniform draws `u`, and adapter matrices `A` (64 × 4096) and `B` (4096 × 64),

      out[t, o] = ( ∑ r < 64, ( ∑ i < 4096, (x[t, i] · [u[t, i] ≥ 0.1] · c) · A[r, i] ) · B[o, r] ) · 2

  with the same threshold word and the same two scale words (`Proof/LoraSpec.lean`). The reference contracts  'ti,ri->tr'
  then  'tr,or->to'  on the host (`Proof/RefValue.lean`). The kernel has the host transpose `A` and `B` first, then on each
  of 64 grid points multiplies a 256-row block of the dropped activations by the transposed `A` and the product by the
  transposed `B` (`Proof/KernelBody.lean`), and the 64 written blocks tile the result (`Proof/KernelValue.lean`). At the
  ideal values a product accumulated into zero is the plain sum over the contracted coordinate and a change of float
  format is the identity, so the two programs are the same double sum term by term: no law of arithmetic beyond reading the
  sums is used, and the precondition (finite inputs) is not needed for the value.

  The three frames: the two kernel programs' are the generated frame runs; the reference's is its generated run with the
  result dropped. The idealization rewrote no operation, so the preservation claim is `True`.
-/
import proofs.«126281_j48524540510754_1_alg».proof.Defs
import proofs.«126281_j48524540510754_1_alg».proof.Proof.Gen.Kernel
import proofs.«126281_j48524540510754_1_alg».proof.Proof.Gen.Kernel.Skeleton
import proofs.«126281_j48524540510754_1_alg».proof.Proof.Gen.Kernel.Launch
import proofs.«126281_j48524540510754_1_alg».proof.Proof.Gen.Kernel.Points
import proofs.«126281_j48524540510754_1_alg».proof.Proof.Gen.Kernel.Frame
import proofs.«126281_j48524540510754_1_alg».proof.Proof.Gen.KernelIdeal
import proofs.«126281_j48524540510754_1_alg».proof.Proof.Gen.KernelIdeal.Skeleton
import proofs.«126281_j48524540510754_1_alg».proof.Proof.Gen.KernelIdeal.Launch
import proofs.«126281_j48524540510754_1_alg».proof.Proof.Gen.KernelIdeal.Points
import proofs.«126281_j48524540510754_1_alg».proof.Proof.Gen.KernelIdeal.Frame
import proofs.«126281_j48524540510754_1_alg».proof.Proof.Gen.ReferenceIdeal
import proofs.«126281_j48524540510754_1_alg».proof.Proof.Gen.Pre_finite_inputs
import proofs.«126281_j48524540510754_1_alg».proof.Proof.Gen.KernelIdeal.Value
import proofs.«126281_j48524540510754_1_alg».proof.Proof.Gen.ReferenceIdeal.Run
import proofs.«126281_j48524540510754_1_alg».proof.Proof.Gen.ReferenceIdeal.Read
import proofs.«126281_j48524540510754_1_alg».proof.Proof.KernelValue
import proofs.«126281_j48524540510754_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array and the reference's both end as the
    specification of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
